-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "c_2_3" .f32 0x3F2AAAAB#32 ((2 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S129280x8 : Shape := ⟨2, ![129280, 8]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S129280x8 : S_.BroadcastsInDim S129280x8 (![] : Fin 0 → Fin S129280x8.rank)
  reducesTo_S129280x8_S_d0_1 : S129280x8.ReducesTo [0, 1] S_

variable [Facts]

def fn {F : FTy → Type} [FloatOps F] (main_arg0 : FVec F S262144x256 .f32) (main_arg1 : IVec S262144 32) (main_arg2 : IVec S129280x8 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_c_0 : IVec S_ 32 := constantI S_ 32 0#32
  let main_v4 : IVec S129280x8 32 := broadcastInDim S129280x8 ![] bcast_S_S129280x8 main_c_0
  let main_v5 : IVec S129280x8 1 := cmpi .sge main_arg2 main_v4
  let main_c_1 : IVec S_ 1 := constantI S_ 1 1#1
  let main_v6 : IVec S_ 1 := (fun x v => Host.reduce IntOp.andi x v reducesTo_S129280x8_S_d0_1 h_S_) main_v5 main_c_1
  let main_v7 : IVec S_ 1 := andi main_v3 main_v6
  let main_c_2 : IVec S_ 32 := constantI S_ 32 256#32
  let main_v8 : IVec S129280x8 32 := broadcastInDim S129280x8 ![] bcast_S_S129280x8 main_c_2
  let main_v9 : IVec S129280x8 1 := cmpi .slt main_arg2 main_v8
  let main_c_3 : IVec S_ 1 := constantI S_ 1 1#1
  let main_v10 : IVec S_ 1 := (fun x v => Host.reduce IntOp.andi x v reducesTo_S129280x8_S_d0_1 h_S_) main_v9 main_c_3
  let main_v11 : IVec S_ 1 := andi main_v7 main_v10
  main_v11
-- ==== Kernel.lean ====
abbrev S262144x256 : Shape := ⟨2, ![262144, 256]⟩
abbrev S262144 : Shape := ⟨1, ![262144]⟩
abbrev S129280x8 : Shape := ⟨2, ![129280, 8]⟩
abbrev S_ : Shape := ⟨0, ![]⟩
abbrev S262144x1 : Shape := ⟨2, ![262144, 1]⟩
abbrev S262144x8 : Shape := ⟨2, ![262144, 8]⟩
abbrev S262144x9 : Shape := ⟨2, ![262144, 9]⟩
abbrev S4096x256 : Shape := ⟨2, ![4096, 256]⟩
abbrev S4096x8 : Shape := ⟨2, ![4096, 8]⟩
abbrev S4096x9 : Shape := ⟨2, ![4096, 9]⟩
abbrev S4096x1 : Shape := ⟨2, ![4096, 1]⟩
abbrev S4096 : Shape := ⟨1, ![4096]⟩

abbrev nBuf : Space → Nat
  | .hbm => 16
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S129280x8, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x8, .i32⟩
  | .hbm, ⟨12, _⟩ => ⟨S262144x9, .f32⟩
  | .hbm, ⟨13, _⟩ => ⟨S_, .i32⟩
  | .hbm, ⟨14, _⟩ => ⟨S262144x1, .i32⟩
  | .hbm, ⟨15, _⟩ => ⟨S262144x9, .i32⟩
  | .local _ .vmem, ⟨0, _⟩ => ⟨S4096x256, .f32⟩
  | .local _ .vmem, ⟨1, _⟩ => ⟨S4096x256, .f32⟩
  | .local _ .vmem, ⟨2, _⟩ => ⟨S4096x8, .i32⟩
  | .local _ .vmem, ⟨3, _⟩ => ⟨S4096x8, .i32⟩
  | .local _ .vmem, ⟨4, _⟩ => ⟨S4096x9, .f32⟩
  | .local _ .vmem, ⟨5, _⟩ => ⟨S4096x9, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  inb_S4096x256_S4096x256_0_0 : ∀ a, (![0, 0] : Fin 2 → Nat) a + S4096x256.size a ≤ S4096x256.size a
  h_S4096x256 : 0 < S4096x256.numel
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  iota_S4096x256_d1_w32 : S4096x256.Iotas .tc 32 [1]
  slices_S4096x8_o0_0_S4096x1 : S4096x8.Slices ![0, 0] S4096x1
  broadcasts_S4096x1_S4096x256 : S4096x1.Broadcasts S4096x256
  natLt_1_32 : 1 < 32
  reduces_S4096x256_S4096 : S4096x256.Reduces [1] S4096
  shapeCasts_S4096_S4096x1 : S4096.ShapeCasts S4096x1
  slices_S4096x8_o0_1_S4096x1 : S4096x8.Slices ![0, 1] S4096x1
  slices_S4096x8_o0_2_S4096x1 : S4096x8.Slices ![0, 2] S4096x1
  slices_S4096x8_o0_3_S4096x1 : S4096x8.Slices ![0, 3] S4096x1
  slices_S4096x8_o0_4_S4096x1 : S4096x8.Slices ![0, 4] S4096x1
  slices_S4096x8_o0_5_S4096x1 : S4096x8.Slices ![0, 5] S4096x1
  slices_S4096x8_o0_6_S4096x1 : S4096x8.Slices ![0, 6] S4096x1
  slices_S4096x8_o0_7_S4096x1 : S4096x8.Slices ![0, 7] S4096x1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  reduces_S4096x8_S4096 : S4096x8.Reduces [1] S4096
  broadcasts_S4096x1_S4096x8 : S4096x1.Broadcasts S4096x8
  concatenates_S4096x8_S4096x1_S4096x9_d1 : Shape.Concatenates [S4096x8, S4096x1] S4096x9 1
  inb_S4096x9_S4096x9_0_0 : ∀ a, (![0, 0] : Fin 2 → Nat) a + S4096x9.size a ≤ S4096x9.size a
  h_S4096x9 : 0 < S4096x9.numel
  bcast_S_S262144x1 : S_.BroadcastsInDim S262144x1 (![] : Fin 0 → Fin S262144x1.rank)
  concatenates_S262144x8_S262144x1_S262144x9_d1 : Shape.Concatenates [S262144x8, S262144x1] S262144x9 1
  gather_S129280x8_S262144x1_S262144x8_1_0_n_n_0_1_18_wf : GatherDims.WF S129280x8 S262144x1 S262144x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S262144x8.size a
  hwx0_1 : ∀ i : grid0.Coords, EltTy.bits .i32 = 32 ∨ (Rect.block (s := S262144x8) S4096x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x9.size a ≤ S262144x9.size a
  hwx0_2 : ∀ i : grid0.Coords, EltTy.bits .f32 = 32 ∨ (Rect.block (s := S262144x9) S4096x9.size (cc0_transform_2 i) (hinb0_2 i)).WholeWords (EltTy.packing .f32)

variable [Facts₀]

def gather_S129280x8_S262144x1_S262144x8_1_0_n_n_0_1_18 : GatherDims S129280x8 S262144x1 S262144x8 where
  offsetDims := [1]
  collapsedSliceDims := [0]
  operandBatchingDims := []
  startIndicesBatchingDims := []
  startIndexMap := [0]
  indexVectorDim := 1
  sliceSizes := ![1, 8]
  wf := gather_S129280x8_S262144x1_S262144x8_1_0_n_n_0_1_18_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S129280x8 : Shape := ⟨2, ![129280, 8]⟩
abbrev S_ : Shape := ⟨0, ![]⟩
abbrev S262144x1 : Shape := ⟨2, ![262144, 1]⟩
abbrev S262144x8 : Shape := ⟨2, ![262144, 8]⟩
abbrev S262144x8x1 : Shape := ⟨3, ![262144, 8, 1]⟩
abbrev S1 : Shape := ⟨1, ![1]⟩
abbrev S1x1x1 : Shape := ⟨3, ![1, 1, 1]⟩
abbrev S262144x9 : Shape := ⟨2, ![262144, 9]⟩

abbrev nBuf : Space → Nat
  | .hbm => 64
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S129280x8, .i32⟩
  | .hbm, ⟨3, _⟩ => ⟨S_, .f32⟩
  | .hbm, ⟨4, _⟩ => ⟨S262144x256, .f32⟩
  | .hbm, ⟨5, _⟩ => ⟨S262144x256, .f32⟩
  | .hbm, ⟨6, _⟩ => ⟨S262144x256, .f32⟩
  | .hbm, ⟨7, _⟩ => ⟨S262144x256, .f32⟩
  | .hbm, ⟨8, _⟩ => ⟨S262144x256, .i1⟩
  | .hbm, ⟨9, _⟩ => ⟨S262144x256, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S262144x256, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x8, .i32⟩
  | .hbm, ⟨27, _⟩ => ⟨S_, .i32⟩
  | .hbm, ⟨28, _⟩ => ⟨S262144x8, .i32⟩
  | .hbm, ⟨29, _⟩ => ⟨S262144x8, .i1⟩
  | .hbm, ⟨30, _⟩ => ⟨S_, .i32⟩
  | .hbm, ⟨31, _⟩ => ⟨S262144x8, .i32⟩
  | .hbm, ⟨32, _⟩ => ⟨S262144x8, .i32⟩
  | .hbm, ⟨33, _⟩ => ⟨S262144x8, .i32⟩
  | .hbm, ⟨34, _⟩ => ⟨S262144x8x1, .i32⟩
  | .hbm, ⟨35, _⟩ => ⟨S1, .i32⟩
  | .hbm, ⟨36, _⟩ => ⟨S_, .i32⟩
  | .hbm, ⟨37, _⟩ => ⟨S262144x8x1, .i32⟩
  | .hbm, ⟨38, _⟩ => ⟨S262144x8x1, .i1⟩
  | .hbm, ⟨39, _⟩ => ⟨S1x1x1, .i32⟩
  | .hbm, ⟨40, _⟩ => ⟨S262144x8x1, .i32⟩
  | .hbm, ⟨41, _⟩ => ⟨S262144x8x1, .i1⟩
  | .hbm, ⟨42, _⟩ => ⟨S262144x8x1, .i1⟩
  | .hbm, ⟨43, _⟩ => ⟨S_, .i1⟩
  | .hbm, ⟨44, _⟩ => ⟨S262144x8, .i1⟩
  | .hbm, ⟨45, _⟩ => ⟨S262144x8, .f32⟩
  | .hbm, ⟨46, _⟩ => ⟨S_, .f32⟩
  | .hbm, ⟨47, _⟩ => ⟨S262144x8, .f32⟩
  | .hbm, ⟨48, _⟩ => ⟨S262144x8, .f32⟩
  | .hbm, ⟨49, _⟩ => ⟨S_, .f32⟩
  | .hbm, ⟨50, _⟩ => ⟨S262144, .f32⟩
  | .hbm, ⟨51, _⟩ => ⟨S262144x1, .f32⟩
  | .hbm, ⟨52, _⟩ => ⟨S262144x8, .f32⟩
  | .hbm, ⟨53, _⟩ => ⟨S262144x8, .f32⟩
  | .hbm, ⟨54, _⟩ => ⟨S_, .i32⟩
  | .hbm, ⟨55, _⟩ => ⟨S262144x1, .i32⟩
  | .hbm, ⟨56, _⟩ => ⟨S_, .f32⟩
  | .hbm, ⟨57, _⟩ => ⟨S262144, .f32⟩
  | .hbm, ⟨58, _⟩ => ⟨S262144x1, .f32⟩
  | .hbm, ⟨59, _⟩ => ⟨S_, .f32⟩
  | .hbm, ⟨60, _⟩ => ⟨S262144x1, .f32⟩
  | .hbm, ⟨61, _⟩ => ⟨S262144x1, .f32⟩
  | .hbm, ⟨62, _⟩ => ⟨S262144x9, .f32⟩
  | .hbm, ⟨63, _⟩ => ⟨S262144x9, .i32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v9 : Ref sig .tc := ⟨.hbm, 48, rfl⟩
abbrev main_cst : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_v16 : Ref sig .tc := ⟨.hbm, 58, rfl⟩
abbrev main_cst_3 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩

abbrev nD : Nat := 1
abbrev τ : Topo := Topo.v7x

variable {F : FTy → Type} [FloatOps F]

class Facts₀ : Prop where
  bcast_S_S262144x256 : S_.BroadcastsInDim S262144x256 (![] : Fin 0 → Fin S262144x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S262144x8 : S_.BroadcastsInDim S262144x8 (![] : Fin 0 → Fin S262144x8.rank)
  shapeCasts_S262144x8_S262144x8x1 : S262144x8.ShapeCasts S262144x8x1
  bcast_S_S262144x8x1 : S_.BroadcastsInDim S262144x8x1 (![] : Fin 0 → Fin S262144x8x1.rank)
  bcast_S1_S1x1x1_2 : S1.BroadcastsInDim S1x1x1 (![2] : Fin 1 → Fin S1x1x1.rank)
  bcast_S1x1x1_S262144x8x1_0_1_2 : S1x1x1.BroadcastsInDim S262144x8x1 (![0, 1, 2] : Fin 3 → Fin S262144x8x1.rank)
  reducesTo_S262144x8x1_S262144x8_d2 : S262144x8x1.ReducesTo [2] S262144x8
  h_S_ : 0 < S_.numel
  reducesTo_S262144x8_S262144_d1 : S262144x8.ReducesTo [1] S262144
  bcast_S262144x1_S262144x8_0_1 : S262144x1.BroadcastsInDim S262144x8 (![0, 1] : Fin 2 → Fin S262144x8.rank)
  bcast_S_S262144x1 : S_.BroadcastsInDim S262144x1 (![] : Fin 0 → Fin S262144x1.rank)
  concatenates_S262144x8_S262144x1_S262144x9_d1 : Shape.Concatenates [S262144x8, S262144x1] S262144x9 1
  gather_S129280x8_S262144x1_S262144x8_1_0_n_n_0_1_18_wf : GatherDims.WF S129280x8 S262144x1 S262144x8 [1] [0] [] [0] [] 1 ![1, 8]
  gather_S262144x256_S262144x8x1_S262144x8_n_1_0_0_1_2_11_wf : GatherDims.WF S262144x256 S262144x8x1 S262144x8 [] [1] [0] [1] [0] 2 ![1, 1]

variable [Facts₀]

def gather_S129280x8_S262144x1_S262144x8_1_0_n_n_0_1_18 : GatherDims S129280x8 S262144x1 S262144x8 where
  offsetDims := [1]
  collapsedSliceDims := [0]
  operandBatchingDims := []
  startIndicesBatchingDims := []
  startIndexMap := [0]
  indexVectorDim := 1
  sliceSizes := ![1, 8]
  wf := gather_S129280x8_S262144x1_S262144x8_1_0_n_n_0_1_18_wf
def gather_S262144x256_S262144x8x1_S262144x8_n_1_0_0_1_2_11 : GatherDims S262144x256 S262144x8x1 S262144x8 where
  offsetDims := []
  collapsedSliceDims := [1]
  operandBatchingDims := [0]
  startIndicesBatchingDims := [0]
  startIndexMap := [1]
  indexVectorDim := 2
  sliceSizes := ![1, 1]
  wf := gather_S262144x256_S262144x8x1_S262144x8_n_1_0_0_1_2_11_wf

class Facts : Prop extends Facts₀ where

variable [Facts]
-- ==== Proof.PreDecode.lean ====
/-
  The precondition read back: when it holds, every entry of the expert-id table is an index into the 256-wide
  expert axis — read signed it is at least 0 and below 256, so read unsigned it is below 256.
-/
import proofs.«426437_j2791728742936_1_alg».proof.Pre_finite_inputs
import proofs.«426437_j2791728742936_1_alg».proof.Proof.Gen.Pre_finite_inputs
import Idealize.ShloMosaic.Lib.ReduceAll
import Idealize.ShloMosaic.Lib.ValueIdx
import Idealize.ShloMosaic.Lib.Pipeline.Value

namespace Cert.Pre_finite_inputs.Decode

open Idealize.ShloMosaic Idealize.ShloMosaic.ValueIdx Cert.Pre_finite_inputs

instance : Subsingleton S_.Idx := ⟨fun a b => funext fun d => d.elim0⟩

/-- A word that is, read signed, in [0, 256) is below 256 read unsigned. -/
theorem toNat_lt_of_signed (e : BitVec 32) (h0 : (0#32).toInt ≤ e.toInt) (h1 : e.toInt < (256#32).toInt) : e.toNat < 256 := by
  have c := BitVec.toInt_eq_toNat_cond e
  have z : (0#32 : BitVec 32).toInt = 0 := by decide
  have t : (256#32 : BitVec 32).toInt = 256 := by decide
  rw [z] at h0; rw [t] at h1
  split at c <;> omega

/-- Under the precondition every entry of the id table, read unsigned, is below 256. -/
theorem ids_lt {F : FTy → Type} [FloatOps F] (a0 : FVec F S262144x256 .f32) (a1 : IVec S262144 32) (a2 : IVec S129280x8 32)
    (h : fn (F := F) a0 a1 a2 = fun _ => 1#1) (i : S129280x8.Idx) : (a2 i).toNat < 256 := by
  have h0 := congrFun h ix0
  dsimp only [fn] at h0
  obtain ⟨h76, h10⟩ := IntOp.andi_eq_one.1 h0
  obtain ⟨_, h6⟩ := IntOp.andi_eq_one.1 h76
  have hge := Host.reduce_andi_all _ _ _ _ _ h6 i
  have hlt := Host.reduce_andi_all _ _ _ _ _ h10 i
  have b0 : broadcastInDim S129280x8 ![] Facts.bcast_S_S129280x8 (constantI S_ 32 0#32) i = 0#32 :=
    broadcastInDim_apply _ _ _ i ix0 (fun a => a.elim0)
  have b256 : broadcastInDim S129280x8 ![] Facts.bcast_S_S129280x8 (constantI S_ 32 256#32) i = 256#32 :=
    broadcastInDim_apply _ _ _ i ix0 (fun a => a.elim0)
  have hge' : IntOp.cmpi .sge (a2 i) (broadcastInDim S129280x8 ![] Facts.bcast_S_S129280x8 (constantI S_ 32 0#32) i) = 1#1 := hge
  have hlt' : IntOp.cmpi .slt (a2 i) (broadcastInDim S129280x8 ![] Facts.bcast_S_S129280x8 (constantI S_ 32 256#32) i) = 1#1 := hlt
  rw [b0] at hge'; rw [b256] at hlt'
  exact toNat_lt_of_signed _ (IntOp.cmpi_sge.1 hge') (IntOp.cmpi_slt.1 hlt')

end Cert.Pre_finite_inputs.Decode
-- ==== Proof.RowSpec.lean ====
/-
  One token's routing weights, as a function of the token's 256 router logits and its 8 routed expert ids.

  score(x) = sqrt(softplus(x)), softplus in the overflow-safe form max(x, 0) + log(1 + exp(-|x|)).
  The weight of routed slot k is the score of the expert the slot names, written as the sum over the 256 experts
  of score · [expert = id]: a sum with at most one non-zero term. The 8 weights are divided by their sum, and a
  ninth entry, the shared expert's weight, is the sum of the 8 normalised weights times 2/3.

  When the id is one of 0 … 255 the one-hot sum IS the score at that expert (`pick_eq`): zero times anything is zero
  on the extended reals and one times x is x, so no finiteness is needed.
-/
import Idealize.ShloMosaic.PureOps.Ideal
import Idealize.ShloMosaic.Lib.ValueIdx

noncomputable section

open scoped BigOperators

namespace Cert.Routing

open Idealize.ShloMosaic Idealize.ShloMosaic.ValueIdx

/-- sqrt(softplus(x)) on the extended reals, softplus as max(x, 0) + log1p(exp(0 − |x − 0|)), with the
    "is x − 0 different from itself" guard the source carries in front of it (never taken: the order is total). -/
def score (x : EReal) : EReal :=
  FloatOps.sqrt (F := Ideal) (φ := .f32)
    (Scalar.select (FloatOps.cmpf (F := Ideal) (φ := .f32) .one (x - Ideal.ofBits .f32 0x00000000#32) (x - Ideal.ofBits .f32 0x00000000#32))
      (x + Ideal.ofBits .f32 0x00000000#32)
      (max x (Ideal.ofBits .f32 0x00000000#32)
        + FloatOps.log1p (F := Ideal) (φ := .f32) (FloatOps.exp (F := Ideal) (φ := .f32)
            (Ideal.ofBits .f32 0x00000000#32 - FloatOps.absf (F := Ideal) (φ := .f32) (x - Ideal.ofBits .f32 0x00000000#32)))))

/-- The indicator "expert j is the one the id word e names", as the extended real 0 or 1: the one-bit
    equality test of the two words, widened to a word and read as a signed integer. -/
def hot (e : BitVec 32) (j : Fin 256) : EReal :=
  (((((IntOp.cmpi .eq (BitVec.ofNat 32 j.val) e).setWidth 32).toInt : ℤ) : ℝ) : EReal)

theorem hot_self (j : Fin 256) : hot (BitVec.ofNat 32 j.val) j = 1 := by
  unfold hot
  have h : IntOp.cmpi .eq (BitVec.ofNat 32 j.val) (BitVec.ofNat 32 j.val) = 1#1 := by simp [IntOp.cmpi]
  rw [h]; simp

theorem hot_ne (e : BitVec 32) (j : Fin 256) (h : BitVec.ofNat 32 j.val ≠ e) : hot e j = 0 := by
  unfold hot
  have h0 : IntOp.cmpi .eq (BitVec.ofNat 32 j.val) e = 0#1 := by simp [IntOp.cmpi, beq_eq_false_iff_ne.mpr h]
  rw [h0]; simp

/-- Slot weight: Σ_j score(x_j) · [j = e]. -/
def pick (xs : Fin 256 → EReal) (e : BitVec 32) : EReal := ∑ j : Fin 256, score (xs j) * hot e j

/-- For an id in range the one-hot sum is the score at that expert. -/
theorem pick_eq (xs : Fin 256 → EReal) (e : BitVec 32) (he : e.toNat < 256) :
    pick xs e = score (xs ⟨e.toNat, he⟩) := by
  unfold pick
  rw [Finset.sum_eq_single (⟨e.toNat, he⟩ : Fin 256)]
  · have hx : BitVec.ofNat 32 e.toNat = e := by simp
    have h1 := hot_self ⟨e.toNat, he⟩
    rw [show BitVec.ofNat 32 (⟨e.toNat, he⟩ : Fin 256).val = e from hx] at h1
    rw [h1, mul_one]
  · intro j _ hj
    refine (congrArg (score (xs j) * ·) (hot_ne e j fun h => hj (Fin.ext ?_))).trans (mul_zero _)
    have h2 : (BitVec.ofNat 32 j.val).toNat = e.toNat := congrArg BitVec.toNat h
    rw [BitVec.toNat_ofNat] at h2
    have := j.isLt
    show j.val = e.toNat
    omega
  · intro h; exact absurd (Finset.mem_univ _) h

/-- The sum of a token's 8 slot weights. -/
def total (xs : Fin 256 → EReal) (es : Fin 8 → BitVec 32) : EReal := ∑ k : Fin 8, pick xs (es k)

/-- A normalised slot weight. -/
def share (xs : Fin 256 → EReal) (es : Fin 8 → BitVec 32) (k : Fin 8) : EReal := Ideal.div (pick xs (es k)) (total xs es)

/-- The 9 output entries of a token: its 8 normalised weights, then (their sum) · 2/3. -/
def rowOut (xs : Fin 256 → EReal) (es : Fin 8 → BitVec 32) (q : Fin 9) : EReal :=
  if h : q.val < 8 then share xs es ⟨q.val, h⟩ else (∑ k : Fin 8, share xs es k) * ((2 / 3 : ℝ) : EReal)

/-- The whole result array, token by token, for any number n of tokens. -/
def weights {n : Nat} (X : (⟨2, ![n, 256]⟩ : Shape).Idx → EReal) (R : (⟨2, ![n, 8]⟩ : Shape).Idx → BitVec 32) :
    (⟨2, ![n, 9]⟩ : Shape).Idx → EReal :=
  fun i => rowOut (fun j => X (ix2 (i 0) j)) (fun k => R (ix2 (i 0) k)) (i 1)

end Cert.Routing

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.LibRows.lean ====
/-
  A row reduction of an n × m matrix read at a row: the sum over the row's m entries, whether the result is kept as a
  vector of n entries or as an [n, 1] column. Stated for any extents, at the extended reals.
-/
import Idealize.ShloMosaic.Lib.Pipeline.Value
import Idealize.ShloMosaic.Lib.ValueIdx
import Idealize.ShloMosaic.PureOps.Ideal.Laws
import proofs.«426437_j2791728742936_1_alg».proof.Proof.LibColumns

open scoped BigOperators

namespace Cert.Lib.Rows

open Idealize.ShloMosaic Idealize.ShloMosaic.ValueIdx

/-- Over row p of the result, the source index whose coordinate on the summed axis is k is (p, k). -/
theorem lift_row {n m : ℕ} (h : (⟨2, ![n, m]⟩ : Shape).Reduces [1] ⟨1, ![n]⟩) (p : Fin n) (k : Fin m) :
    h.lift (ix1 p) k = ix2 p k := by
  funext c
  match c with
  | ⟨0, _⟩ => exact Fin.ext rfl
  | ⟨1, _⟩ => exact Fin.ext rfl

/-- A sum along the second axis, read at row p: Σ_k M(p, k). -/
theorem rowSum_apply {n m : ℕ} {φ : FTy} (M : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (p : Fin n) :
    multiReduction .add [1] ⟨1, ![n]⟩ M acc h hφ hacc (ix1 p) = ∑ k : Fin m, M (ix2 p k) := by
  rw [Ideal.multiReduction_add_single]
  exact Finset.sum_congr rfl fun k _ => congrArg M (lift_row h p k)

/-- The same sum kept as an [n, 1] column, read at (p, u). -/
theorem keptRowSum_apply {n m : ℕ} {φ : FTy} (M : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (hc : (⟨1, ![n]⟩ : Shape).ShapeCasts ⟨2, ![n, 1]⟩) (p : Fin n) (u : Fin 1) :
    shapeCast ⟨2, ![n, 1]⟩ (multiReduction .add [1] ⟨1, ![n]⟩ M acc h hφ hacc) hc (ix2 p u) = ∑ k : Fin m, M (ix2 p k) := by
  rw [Cert.Lib.Columns.shapeCast_a_a1_apply, rowSum_apply]

end Cert.Lib.Rows
-- ==== Proof.KernelRow.lean ====
/-
  What the kernel's body leaves in its output block, entry by entry.

  The body computes, for the block's 4096 tokens at once: the scores of the 256 router logits; for each of the 8
  routed slots the lane sum of score · [lane = the slot's id] (the slot's id laid along the 256 lanes, compared with
  the lane number); the 8 sums side by side; their row sum, laid back along the 8 columns, as the divisor; and a
  ninth column, the row sum of the 8 quotients times the constant named 2/3. Read at token p and column q this is
  the token's routing weight `Cert.Routing.rowOut` of row p of the two input blocks: every step is a layout
  operation or a pointwise one read at an index, and a lane sum read as a sum over the lanes.
-/
import proofs.«426437_j2791728742936_1_alg».proof.Proof.Gen.KernelIdeal.Frame
import proofs.«426437_j2791728742936_1_alg».proof.Proof.RowSpec
import proofs.«426437_j2791728742936_1_alg».proof.Proof.LibColumns
import proofs.«426437_j2791728742936_1_alg».proof.Proof.LibRows
import Idealize.ShloMosaic.PureOps.IdealRules

set_option maxRecDepth 16384

noncomputable section

open scoped BigOperators

namespace Cert.KernelIdeal.RowValue

open Idealize.ShloMosaic Idealize.ShloMosaic.ValueIdx Cert.KernelIdeal Cert.KernelIdeal.Gen Cert.Routing
open Cert.Lib.Columns Cert.Lib.Rows

/-- The scores of a block of logits are the scores of its entries. -/
theorem scores_apply (x0 : Vec Ideal S4096x256 .f32) (i : S4096x256.Idx) : k0_pay2 (F := Ideal) x0 i = score (x0 i) := rfl

/-- One slot's column: the lane sum of s · [lane = the slot's id], kept as a [4096, 1] column. -/
def col (s : FVec Ideal S4096x256 .f32) (ids : IVec S4096x8 32) (o : Nat) (hsl : S4096x8.Slices ![0, o] S4096x1) :
    FVec Ideal S4096x1 .f32 :=
  shapeCast S4096x1 (multiReduction .add [1] S4096
    (mulf s (sitofp .f32 (extui 32 (cmpi .eq (iota .tc S4096x256 32 [1] iota_S4096x256_d1_w32)
      (broadcastTo S4096x256 (extractStridedSlice S4096x1 ![0, o] ids hsl) broadcasts_S4096x1_S4096x256)) natLt_1_32)))
    0x00000000#32 reduces_S4096x256_S4096 (.inl rfl) rfl) shapeCasts_S4096_S4096x1

/-- The slot's id, laid along the lanes and compared with the lane number, at token p and lane j. -/
theorem mask_apply (ids : IVec S4096x8 32) (o : Nat) (ho : o < 8) (hsl : S4096x8.Slices ![0, o] S4096x1)
    (p : Fin 4096) (j : Fin 256) :
    (sitofp .f32 (extui 32 (cmpi .eq (iota .tc S4096x256 32 [1] iota_S4096x256_d1_w32)
      (broadcastTo S4096x256 (extractStridedSlice S4096x1 ![0, o] ids hsl) broadcasts_S4096x1_S4096x256)) natLt_1_32)
        : FVec Ideal S4096x256 .f32) (ix2 p j) = hot (ids (ix2 p ⟨o, ho⟩)) j := by
  have e1 : iota .tc S4096x256 32 [1] iota_S4096x256_d1_w32 (ix2 p j) = BitVec.ofNat 32 j.val :=
    iota_single_apply .tc S4096x256 32 1 iota_S4096x256_d1_w32 (ix2 p j)
  have e2 : broadcastTo S4096x256 (extractStridedSlice S4096x1 ![0, o] ids hsl) broadcasts_S4096x1_S4096x256 (ix2 p j)
      = ids (ix2 p ⟨o, ho⟩) :=
    (broadcastTo_a1_ab_apply _ _ p j).trans
      (extractStridedSlice_apply ![0, o] ids hsl (ix2 p (0 : Fin 1)) (ix2 p ⟨o, ho⟩) (fun a => by
        match a with
        | ⟨0, _⟩ => show p.val = 0 + p.val; omega
        | ⟨1, _⟩ => show o = o + 0; omega))
  show (((((IntOp.cmpi .eq (iota .tc S4096x256 32 [1] iota_S4096x256_d1_w32 (ix2 p j))
      (broadcastTo S4096x256 (extractStridedSlice S4096x1 ![0, o] ids hsl) broadcasts_S4096x1_S4096x256 (ix2 p j))).setWidth 32).toInt : ℤ) : ℝ) : EReal) = _
  rw [e1, e2]
  rfl

/-- A slot's column at token p: the slot weight of the token's scores and the slot's id. -/
theorem col_apply (s : FVec Ideal S4096x256 .f32) (ids : IVec S4096x8 32) (o : Nat) (ho : o < 8)
    (hsl : S4096x8.Slices ![0, o] S4096x1) (p : Fin 4096) (u : Fin 1) :
    col s ids o hsl (ix2 p u) = ∑ j : Fin 256, s (ix2 p j) * hot (ids (ix2 p ⟨o, ho⟩)) j := by
  unfold col
  refine (keptRowSum_apply _ _ _ _ _ _ p u).trans (Finset.sum_congr rfl fun j _ => ?_)
  exact (mulf_apply _ _ _).trans (congrArg (s (ix2 p j) * ·) (mask_apply ids o ho hsl p j))

/-- The 8 slot columns side by side. -/
def cols8 (s : FVec Ideal S4096x256 .f32) (ids : IVec S4096x8 32) : FVec Ideal S4096x8 .f32 :=
  concatenate S4096x8 1 [⟨S4096x1, col s ids 0 slices_S4096x8_o0_0_S4096x1⟩, ⟨S4096x1, col s ids 1 slices_S4096x8_o0_1_S4096x1⟩,
    ⟨S4096x1, col s ids 2 slices_S4096x8_o0_2_S4096x1⟩, ⟨S4096x1, col s ids 3 slices_S4096x8_o0_3_S4096x1⟩,
    ⟨S4096x1, col s ids 4 slices_S4096x8_o0_4_S4096x1⟩, ⟨S4096x1, col s ids 5 slices_S4096x8_o0_5_S4096x1⟩,
    ⟨S4096x1, col s ids 6 slices_S4096x8_o0_6_S4096x1⟩, ⟨S4096x1, col s ids 7 slices_S4096x8_o0_7_S4096x1⟩]
    concatenates_S4096x1_S4096x1_S4096x1_S4096x1_S4096x1_S4096x1_S4096x1_S4096x1_S4096x8_d1

/-- Entry (p, k) of the 8 columns is column k at token p. -/
theorem cols8_apply (s : FVec Ideal S4096x256 .f32) (ids : IVec S4096x8 32) (p : Fin 4096) (k : Fin 8) :
    cols8 s ids (ix2 p k) = ∑ j : Fin 256, s (ix2 p j) * hot (ids (ix2 p k)) j := by
  unfold cols8
  have key : ∀ (n : Nat) (hn : n < 8) (hsl : S4096x8.Slices ![0, n] S4096x1) (xs : List ((sh : Shape) × (sh.Idx → EReal)))
      (hc : Shape.Concatenates (xs.map (·.1)) S4096x8 1) (hlen : n < xs.length)
      (hx : xs[n] = ⟨S4096x1, col s ids n hsl⟩)
      (hpre : (((xs.take n).map (·.1)).map fun sh => if h : sh.rank = S4096x8.rank then sh.size ((1 : Fin S4096x8.rank).cast h.symm) else 0).sum = n),
      concatenate S4096x8 1 xs hc (ix2 p ⟨n, hn⟩) = ∑ j : Fin 256, s (ix2 p j) * hot (ids (ix2 p ⟨n, hn⟩)) j := by
    intro n hn hsl xs hc hlen hx hpre
    refine (concatenate_apply_piece 1 xs hc (ix2 p ⟨n, hn⟩) n hlen S4096x1 (col s ids n hsl) hx rfl n hpre (ix2 p (0 : Fin 1))
      (fun b hb => by
        match b with
        | ⟨0, _⟩ => rfl
        | ⟨1, _⟩ => exact absurd rfl hb)
      (by show n + 0 = n; omega)).trans ?_
    exact col_apply s ids n hn hsl p 0
  match k with
  | ⟨0, h⟩ => exact key 0 h _ _ _ (show (0 : Nat) < 8 by decide) rfl rfl
  | ⟨1, h⟩ => exact key 1 h _ _ _ (show (1 : Nat) < 8 by decide) rfl rfl
  | ⟨2, h⟩ => exact key 2 h _ _ _ (show (2 : Nat) < 8 by decide) rfl rfl
  | ⟨3, h⟩ => exact key 3 h _ _ _ (show (3 : Nat) < 8 by decide) rfl rfl
  | ⟨4, h⟩ => exact key 4 h _ _ _ (show (4 : Nat) < 8 by decide) rfl rfl
  | ⟨5, h⟩ => exact key 5 h _ _ _ (show (5 : Nat) < 8 by decide) rfl rfl
  | ⟨6, h⟩ => exact key 6 h _ _ _ (show (6 : Nat) < 8 by decide) rfl rfl
  | ⟨7, h⟩ => exact key 7 h _ _ _ (show (7 : Nat) < 8 by decide) rfl rfl

/-- The constant the kernel multiplies the ninth column by is 2/3. -/
theorem two_thirds : Named.named (F := Ideal) κ "c_2_3" (φ := .f32) 0x3F2AAAAB#32 = ((2 / 3 : ℝ) : EReal) :=
  IdealRules.named_const.ideal_named_scalar _ _ _ _ rfl

/-- From the 8 columns W to the output block: W divided by its row sums, and the ninth column. -/
def normalise (W : FVec Ideal S4096x8 .f32) : FVec Ideal S4096x9 .f32 :=
  have v84 : FVec Ideal S4096 .f32 := multiReduction .add [1] S4096 W 0x00000000#32 reduces_S4096x8_S4096 (.inl rfl) rfl
  have v85 : FVec Ideal S4096x1 .f32 := shapeCast S4096x1 v84 shapeCasts_S4096_S4096x1
  have v86 : FVec Ideal S4096x8 .f32 := broadcastTo S4096x8 v85 broadcasts_S4096x1_S4096x8
  have v87 : FVec Ideal S4096x8 .f32 := divf W v86
  have v88 : FVec Ideal S4096 .f32 := multiReduction .add [1] S4096 v87 0x00000000#32 reduces_S4096x8_S4096 (.inl rfl) rfl
  have v89 : FVec Ideal S4096x1 .f32 := shapeCast S4096x1 v88 shapeCasts_S4096_S4096x1
  have cst_14 : Ideal .f32 := Named.named κ "c_2_3" 0x3F2AAAAB#32
  have v90 : FVec Ideal S4096x1 .f32 := broadcast S4096x1 cst_14
  have v91 : FVec Ideal S4096x1 .f32 := mulf v89 v90
  concatenate S4096x9 1 [⟨S4096x8, v87⟩, ⟨S4096x1, v91⟩] concatenates_S4096x8_S4096x1_S4096x9_d1

/-- A quotient column of `normalise` at (p, k). -/
theorem quot_apply (W : FVec Ideal S4096x8 .f32) (p : Fin 4096) (k : Fin 8) :
    divf W (broadcastTo S4096x8 (shapeCast S4096x1 (multiReduction .add [1] S4096 W 0x00000000#32 reduces_S4096x8_S4096 (.inl rfl) rfl)
      shapeCasts_S4096_S4096x1) broadcasts_S4096x1_S4096x8) (ix2 p k) = Ideal.div (W (ix2 p k)) (∑ k' : Fin 8, W (ix2 p k')) := by
  refine (divf_apply _ _ _).trans (congrArg (Ideal.div (W (ix2 p k))) ?_)
  exact (broadcastTo_a1_ab_apply _ _ p k).trans (keptRowSum_apply _ _ _ _ _ _ p 0)

theorem normalise_apply (W : FVec Ideal S4096x8 .f32) (p : Fin 4096) (q : Fin 9) :
    normalise W (ix2 p q) = if h : q.val < 8 then Ideal.div (W (ix2 p ⟨q.val, h⟩)) (∑ k' : Fin 8, W (ix2 p k'))
      else (∑ k : Fin 8, Ideal.div (W (ix2 p k)) (∑ k' : Fin 8, W (ix2 p k'))) * ((2 / 3 : ℝ) : EReal) := by
  unfold normalise
  by_cases h : q.val < 8
  · rw [dif_pos h]
    exact (concatenate_pair_apply_left (s₁ := S4096x8) (s₂ := S4096x1) 1 _ _ _ (ix2 p q) rfl (ix2 p ⟨q.val, h⟩) (fun b => by
      match b with
      | ⟨0, _⟩ => rfl
      | ⟨1, _⟩ => rfl)).trans (quot_apply W p ⟨q.val, h⟩)
  · rw [dif_neg h]
    refine (concatenate_pair_apply_right (s₁ := S4096x8) (s₂ := S4096x1) 1 _ _ _ (ix2 p q) rfl rfl (ix2 p (0 : Fin 1)) (fun b hb => by
      match b with
      | ⟨0, _⟩ => rfl
      | ⟨1, _⟩ => exact absurd rfl hb) (by show 0 + 8 = q.val; have := q.isLt; omega)).trans ?_
    refine (mulf_apply _ _ _).trans ?_
    exact congrArg₂ (· * ·)
      ((keptRowSum_apply _ _ _ _ _ _ p 0).trans (Finset.sum_congr rfl fun k _ => quot_apply W p k)) two_thirds

/-- The body's one store, as the normalisation of the 8 slot columns of the scores and ids. -/
theorem payload_eq (x0 : Vec Ideal S4096x256 .f32) (x1 : Vec Ideal S4096x8 .i32) :
    k0_pay1 (F := Ideal) (k0_pay2 x0) (k0_pay3 x1) (iota .tc S4096x256 32 [1] iota_S4096x256_d1_w32)
      (k0_pay4 x0 x1) (k0_pay5 x0 x1) (k0_pay6 x0 x1) (k0_pay7 x0 x1)
    = normalise (cols8 (k0_pay2 x0) (k0_pay3 x1)) := rfl

/-- The ids pass through their identity reshape. -/
theorem ids_apply (x1 : Vec Ideal S4096x8 .i32) : k0_pay3 (F := Ideal) x1 = x1 := shapeCast_self _ _

/-- THE BLOCK: entry (p, q) of what the body stores is token p's routing weight q. -/
theorem block_apply (x0 : Vec Ideal S4096x256 .f32) (x1 : Vec Ideal S4096x8 .i32) (p : Fin 4096) (q : Fin 9) :
    out0_2 (F := Ideal) x0 x1 (ix2 p q) = rowOut (fun j => x0 (ix2 p j)) (fun k => x1 (ix2 p k)) q := by
  have hz : (![0, 0] : Fin 2 → Nat) = fun _ => 0 := by funext a; match a with | ⟨0, _⟩ => rfl | ⟨1, _⟩ => rfl
  unfold out0_2
  rw [View.canon_unit_zero hz]
  simp only [View.ld_unit_zero (S := S4096x256) hz, View.ld_unit_zero (S := S4096x8) hz]
  rw [payload_eq, normalise_apply]
  have hw : ∀ k : Fin 8, cols8 (k0_pay2 x0) (k0_pay3 x1) (ix2 p k) = pick (fun j => x0 (ix2 p j)) (x1 (ix2 p k)) := fun k => by
    rw [cols8_apply, ids_apply]; rfl
  unfold rowOut share total
  simp only [hw]

end Cert.KernelIdeal.RowValue

end
-- ==== Proof.KernelArray.lean ====
/-
  From the kernel's blocks to its result arrays.

  The grid has 64 points; point t stages rows 4096·t … 4096·t + 4095 of the logits and of the routed ids and writes
  back the same rows of the output, all columns. Row p of point t's block is therefore token 4096·t + p, the body's
  block is that token's routing weights (`RowValue.block_apply`), and the 64 blocks tile the [262144, 9] output: the
  array ends as `Cert.Routing.weights` of the logits and of the routed ids as the region finds them. The routed ids
  are written by the host lines before the region (the table rows gathered at the token ids), and the lines after it
  append the shared expert's id 256 to them.
-/
import proofs.«426437_j2791728742936_1_alg».proof.Proof.KernelRow
import Idealize.ShloMosaic.Lib.Pipeline.Value
import Idealize.ShloMosaic.Lib.StableHlo.Run

set_option maxRecDepth 16384

noncomputable section

open scoped BigOperators

namespace Cert.KernelIdeal.ArrayValue

open Idealize.ShloMosaic Idealize.ShloMosaic.TcCoe Idealize.ShloMosaic.ValueIdx Idealize.SL.Sem
open Cert.KernelIdeal Cert.KernelIdeal.Gen Cert.Routing Cert.KernelIdeal.RowValue
open Idealize.ShloMosaic.Pipeline (Dat)

variable (m : (ℓ : Loc nD τ sig) → Buf (Elt Ideal) ℓ) (ρ : Dev nD → PrngReg)

/-- The logits and the routed ids as the region finds them, and a point's two input blocks, at their literal types. -/
abbrev logits (c : Dev nD) : Vec Ideal S262144x256 .f32 := V m c main_arg0
abbrev rids (c : Dev nD) : Vec Ideal S262144x8 .i32 := V m c main_v6
abbrev lblk (c : Dev nD) (t : Fin cfg0.N) : Vec Ideal S4096x256 .f32 := iblk m c 0 t
abbrev rblk (c : Dev nD) (t : Fin cfg0.N) : Vec Ideal S4096x8 .i32 := iblk m c 1 t

/-- The printed index maps over the grid: every window's block row is the point's number, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem tok_lt (t : Fin cfg0.N) (p : Fin 4096) : t.val * 4096 + p.val < 262144 := by
  have ht : t.val < 64 := t.isLt
  have hp := p.isLt
  omega

/-- Row p of point t's logits block is token 4096·t + p's row of the logits. -/
theorem lblk_apply (c : Dev nD) (t : Fin cfg0.N) (p : Fin 4096) (j : Fin 256) :
    lblk m c t (ix2 p j) = logits m c (ix2 ⟨t.val * 4096 + p.val, tok_lt t p⟩ j) := by
  obtain ⟨e00, e01, -, -, -, -⟩ := idx_facts t
  show V m c main_arg0 (((cfg0.win 0).blk t).view.emb (ix2 p j)) = V m c main_arg0 _
  refine congrArg _ (funext fun a => Fin.ext ?_)
  match a with
  | ⟨0, _⟩ => show win0_0.index t (0 : Fin 2) * 4096 + 1 * p.val = t.val * 4096 + p.val; rw [e00]; omega
  | ⟨1, _⟩ => show win0_0.index t (1 : Fin 2) * 256 + 1 * j.val = j.val; rw [e01]; omega

/-- Row p of point t's ids block is token 4096·t + p's row of the routed ids. -/
theorem rblk_apply (c : Dev nD) (t : Fin cfg0.N) (p : Fin 4096) (k : Fin 8) :
    rblk m c t (ix2 p k) = rids m c (ix2 ⟨t.val * 4096 + p.val, tok_lt t p⟩ k) := by
  obtain ⟨-, -, e10, e11, -, -⟩ := idx_facts t
  show V m c main_v6 (((cfg0.win 1).blk t).view.emb (ix2 p k)) = V m c main_v6 _
  refine congrArg _ (funext fun a => Fin.ext ?_)
  match a with
  | ⟨0, _⟩ => show win0_1.index t (0 : Fin 2) * 4096 + 1 * p.val = t.val * 4096 + p.val; rw [e10]; omega
  | ⟨1, _⟩ => show win0_1.index t (1 : Fin 2) * 8 + 1 * k.val = k.val; rw [e11]; omega

/-- WHAT POINT t WRITES BACK is block t of the routing weights of the logits and the routed ids. -/
theorem flushed_eq (c : Dev nD) (t : Fin cfg0.N) :
    (dats m 0 c).flushed 2 t = ((cfg0.win 2).blk t).view.read (Elt Ideal) (weights (logits m c) (rids m c)) := by
  show (cfg0.win 2).cut (grid0.coords t) ((dats m 0 c).after 2 t) = _
  rw [after0_2]
  obtain ⟨-, -, -, -, e20, e21⟩ := idx_facts t
  funext y
  obtain ⟨p, q, rfl⟩ : ∃ (p : Fin 4096) (q : Fin 9), y = ix2 p q := ⟨y 0, y 1, eq_ix2 y⟩
  show out0_2 (F := Ideal) (lblk m c t) (rblk m c t) (ix2 p q)
    = weights (logits m c) (rids m c) (((cfg0.win 2).blk t).view.emb (ix2 p q))
  rw [block_apply]
  unfold weights
  have h0 : ((cfg0.win 2).blk t).view.emb (ix2 p q) 0 = (⟨t.val * 4096 + p.val, tok_lt t p⟩ : Fin 262144) :=
    Fin.ext (by show win0_2.index t (0 : Fin 2) * 4096 + 1 * p.val = t.val * 4096 + p.val; rw [e20]; omega)
  have h1 : ((cfg0.win 2).blk t).view.emb (ix2 p q) 1 = q :=
    Fin.ext (by show win0_2.index t (1 : Fin 2) * 9 + 1 * q.val = q.val; rw [e21]; omega)
  show _ = rowOut (fun j => logits m c (ix2 (((cfg0.win 2).blk t).view.emb (ix2 p q) 0) j))
    (fun k => rids m c (ix2 (((cfg0.win 2).blk t).view.emb (ix2 p q) 0) k)) (((cfg0.win 2).blk t).view.emb (ix2 p q) 1)
  rw [h0, h1]
  exact congrArg₂ (fun a b => rowOut a b q) (funext fun j => lblk_apply m c t p j) (funext fun k => rblk_apply m c t p k)

/-- An index of the output is in point t's block iff each coordinate is in the block's range on its axis. -/
theorem mem_blk (t : Fin cfg0.N) (i : S262144x9.Idx) :
    i ∈ ((cfg0.win 2).blk t).view.set ↔ ∀ a : Fin 2, win0_2.index t a * S4096x9.size a ≤ (i a).val
      ∧ (i a).val < win0_2.index t a * S4096x9.size a + S4096x9.size a := by
  show i ∈ ((View.whole main_v7).slice (win0_2.rect t)).set ↔ _
  rw [View.set_slice_whole, Rect.mem_set_unit]
  exact Iff.rfl

/-- The 64 blocks tile the output: row r is in point r / 4096's block. -/
theorem cover (i : S262144x9.Idx) : ∃ t : Fin cfg0.N, (cfg0.win 2).flush t = true ∧ i ∈ ((cfg0.win 2).blk t).view.set := by
  have hi0 : (i 0).val < 262144 := idx2_lt0 i
  have hi1 : (i 1).val < 9 := idx2_lt1 i
  have ht : (i 0).val / 4096 < cfg0.N := by show (i 0).val / 4096 < 64; omega
  obtain ⟨-, -, -, -, e20, e21⟩ := idx_facts ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e20]; show (i 0).val / 4096 * 4096 ≤ (i 0).val ∧ (i 0).val < (i 0).val / 4096 * 4096 + 4096; omega
  | ⟨1, _⟩ =>
    show win0_2.index ⟨(i 0).val / 4096, ht⟩ (1 : Fin 2) * 9 ≤ (i 1).val
      ∧ (i 1).val < win0_2.index ⟨(i 0).val / 4096, ht⟩ (1 : Fin 2) * 9 + 9
    rw [e21]; omega

/-- THE OUTPUT ARRAY after the run: the routing weights, token by token. -/
theorem final (c : Dev nD) : (dats m 0 c).arrAt 2 cfg0.N = weights (logits m c) (rids m c) :=
  (dats m 0 c).arrAt_eq_of_cover 2 _ (fun t _ => flushed_eq m c t) cover

/-! ## The host lines around the region -/

/-- The routed ids as the lines before the region compute them: the id table's rows gathered at the token ids
    (negative token ids wrapped by adding the table's 129280 rows, as jnp indexing does). -/
def routed (a1 : IVec S262144 32) (a2 : IVec S129280x8 32) : IVec S262144x8 32 :=
  Host.gather gather_S129280x8_S262144x1_S262144x8_1_0_n_n_0_1_18 a2
    (broadcastInDim S262144x1 ![0] bcast_S262144_S262144x1_0
      (select (cmpi .slt a1 (broadcastInDim S262144 ![] bcast_S_S262144 (constantI S_ 32 0#32)))
        (addi a1 (broadcastInDim S262144 ![] bcast_S_S262144 (constantI S_ 32 129280#32))) a1))

theorem rids_eq (c : Dev nD) :
    rids m c = routed (m ((c : Thread nD τ).loc main_arg1)) (m ((c : Thread nD τ).loc main_arg2)) := by
  show StableHlo.after hostOps0 (fun b => m (c, b)) (Proc.devRef .tc main_v6) = _
  after_results
  rfl

theorem logits_eq (c : Dev nD) : logits m c = m ((c : Thread nD τ).loc main_arg0) := V_main_arg0 m c

/-- The second result: the routed ids with the shared expert's id 256 appended, as the lines after the region leave it. -/
theorem ids_out (c : Dev nD) :
    Pipeline.afterTail₀ cfgs (dats m) 0 (V0 m) [hostOps1] c main_v9
      = concatenate S262144x9 1 [⟨S262144x8, rids m c⟩, ⟨S262144x1, broadcastInDim S262144x1 ![] bcast_S_S262144x1 (constantI S_ 32 256#32)⟩]
          concatenates_S262144x8_S262144x1_S262144x9_d1 := by
  unfold Pipeline.afterTail₀
  show StableHlo.after hostOps1 _ (Proc.devRef .tc main_v9) = _
  after_results
  have hw := (Pipeline.withArrays_arr spec0 launch0.win.arr_inj c (V0 m c) (fun w => (dats m 0 c).arrAt w (cfgs 0).N) 1).trans
    (((dats m 0 c).arrAt_in 1 rfl _).trans (A_eq m c 1))
  exact congrArg (fun a => concatenate S262144x9 1 [⟨S262144x8, a⟩, ⟨S262144x1, broadcastInDim S262144x1 ![] bcast_S_S262144x1 (constantI S_ 32 256#32)⟩]
    concatenates_S262144x8_S262144x1_S262144x9_d1) hw

/-! ## The run, read -/

/-- Every weakly fair execution of the kernel's @main ends with the first result at the routing weights of the
    logits and the routed ids, the second at the routed ids with 256 appended, and the arguments unchanged. -/
theorem run : θ_run defs (onTc (τ := τ) (main (F := Ideal))) ⟨m, fun _ => 0, ρ⟩ fun r => ∀ c : Dev nD,
      r.2.mem ((c.tc : Thread nD τ).loc main_v7)
        = weights (m ((c : Thread nD τ).loc main_arg0)) (routed (m ((c : Thread nD τ).loc main_arg1)) (m ((c : Thread nD τ).loc main_arg2)))
      ∧ r.2.mem ((c.tc : Thread nD τ).loc main_v9)
        = concatenate S262144x9 1 [⟨S262144x8, routed (m ((c : Thread nD τ).loc main_arg1)) (m ((c : Thread nD τ).loc main_arg2))⟩,
            ⟨S262144x1, broadcastInDim S262144x1 ![] bcast_S_S262144x1 (constantI S_ 32 256#32)⟩] concatenates_S262144x8_S262144x1_S262144x9_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  refine ⟨?_, ?_, ?_, ?_, ?_⟩
  · refine ((h c).1 2).trans ((final m c).trans ?_)
    rw [logits_eq, rids_eq]
  · refine ((h c).2 main_v9 (Pipeline.mem_restRefs_of main_v9 (by decide) (by decide))).trans ((ids_out m c).trans ?_)
    rw [rids_eq]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.ArrayValue

end
-- ==== Proof.LibGatherAlong.lean ====
/-
  Picking, in every row of an R × N matrix, the entries at C given positions (`take_along_axis` along the last axis)
  prints as a gather whose row axis is a batching axis and whose column axis is collapsed and start-indexed, the start
  indices an [R, C, 1] array. Read at (r, k) it is the operand at row r and at the column the start index names, read
  as a signed integer and clamped into [0, N − 1]. Stated for any extents and any element type.
-/
import Idealize.ShloMosaic.PureOps.ShapeOps
import Idealize.ShloMosaic.Lib.ValueIdx

namespace Cert.Lib.GatherAlong

open Idealize.ShloMosaic Idealize.ShloMosaic.ValueIdx

/-- Those dimension numbers, for an operand [R, N], start indices [R, C, 1] and a result [R, C]. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT (r, k): row r of the operand at the column idx[r, k, 0], read signed and clamped into [0, N − 1]. -/
theorem gather_along_apply {α : Type} {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (r : Fin R) (k : Fin C) :
    Host.gather (alongDims R N C wf) x idx (ix2 r k)
      = x (ix2 r ⟨min (idx (ix3 r k (0 : Fin 1))).toInt.toNat (N - 1), by omega⟩) := by
  unfold Host.gather
  congr 1
  funext a
  refine Fin.ext ?_
  match a with
  | ⟨0, _⟩ =>
    -- the row axis: a batching axis, its coordinate the result's row
    show (alongDims R N C wf).start (ix2 r k) idx 0 + (alongDims R N C wf).batchCoord (ix2 r k) 0
      + (alongDims R N C wf).offCoord (ix2 r k) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N C wf).operandBatchingDims from List.mem_singleton.mpr rfl)]
    rfl
  | ⟨1, _⟩ =>
    -- the column axis: collapsed, its coordinate the clamped start index
    show (alongDims R N C wf).start (ix2 r k) idx 1 + (alongDims R N C wf).batchCoord (ix2 r k) 1
      + (alongDims R N C wf).offCoord (ix2 r k) 1 = min (idx (ix3 r k (0 : Fin 1))).toInt.toNat (N - 1)
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N C wf).startIndexMap from List.mem_singleton.mpr rfl)]
    have hsi : (alongDims R N C wf).siIdx (ix2 r k) ⟨List.idxOf (1 : Fin 2) (alongDims R N C wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl

end Cert.Lib.GatherAlong
-- ==== Proof.RefRow.lean ====
/-
  What the reference computes, entry by entry, when every routed expert id is one of 0 … 255.

  The reference takes the scores of all logits, then picks in each token's row the 8 scores at the token's routed ids
  (`take_along_axis`: negative positions wrapped by adding 256, a position outside 0 … 255 answered by a fill value,
  the pick itself a gather that clamps). For an id in range the wrap is not taken, the range test passes, the clamp
  is the identity, and the pick is the score at that expert — which is the kernel's one-hot lane sum
  (`Cert.Routing.pick_eq`). From there both programs do the same: divide by the row sum, and append the row sum of
  the quotients divided by 1.5, which on every extended real is the product with 2/3.
-/
import proofs.«426437_j2791728742936_1_alg».proof.Proof.RefRead
import proofs.«426437_j2791728742936_1_alg».proof.Proof.RowSpec
import proofs.«426437_j2791728742936_1_alg».proof.Proof.LibGatherAlong
import Idealize.ShloMosaic.Lib.IdealHost
import Idealize.ShloMosaic.Lib.Affine

set_option maxRecDepth 16384

noncomputable section

open scoped BigOperators

namespace Cert.ReferenceIdeal.RowValue

open Idealize.ShloMosaic Idealize.ShloMosaic.ValueIdx Cert.ReferenceIdeal Cert.ReferenceIdeal.Gen Cert.ReferenceIdeal.RefRead
open Cert.Routing Cert.Lib.GatherAlong

/-! ## Words in range -/

theorem toInt_of_lt (e : BitVec 32) (he : e.toNat < 256) : e.toInt = e.toNat :=
  BitVec.toInt_eq_toNat_of_lt (by omega)

/-- An id in range is not negative: the wrap is not taken. -/
theorem wrap_id (e z w : BitVec 32) (hz : z = 0#32) (he : e.toNat < 256) :
    Scalar.select (IntOp.cmpi .slt e z) (IntOp.addi e w) e = e := by
  subst hz
  have h0 : IntOp.cmpi .slt e 0#32 = 0#1 := eq_zero_of_ne_one fun h => by
    have := IntOp.cmpi_slt.1 h
    rw [toInt_of_lt e he] at this
    have z0 : (0#32 : BitVec 32).toInt = 0 := by decide
    omega
  rw [h0, select_zero]

/-- An id in range passes the range test 0 ≤ e ≤ 255. -/
theorem in_range (e lo hi : BitVec 32) (hlo : lo = 0#32) (hhi : hi = 255#32) (he : e.toNat < 256) :
    IntOp.andi (IntOp.cmpi .sge e lo) (IntOp.cmpi .sle e hi) = 1#1 := by
  subst hlo hhi
  have z0 : (0#32 : BitVec 32).toInt = 0 := by decide
  have z255 : (255#32 : BitVec 32).toInt = 255 := by decide
  refine IntOp.andi_eq_one.2 ⟨IntOp.cmpi_sge.2 ?_, IntOp.cmpi_sle.2 ?_⟩
  · rw [toInt_of_lt e he, z0]; omega
  · rw [toInt_of_lt e he, z255]; omega

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The reference's stages at an index -/

variable (x0 : FVec Ideal S262144x256 .f32) (x1 : IVec S262144 32) (x2 : IVec S129280x8 32)

/-- The routed ids are entries of the id table. -/
theorem rid_lt (hx2 : ∀ i, (x2 i).toNat < 256) (i : S262144x8.Idx) : (val_main_v8 (F := Ideal) x1 x2 i).toNat < 256 :=
  hx2 _

/-- The reference's scores are the scores: its softplus has `−|x − 0|` where the kernel has `0 − |x − 0|`. -/
theorem ref_score (i : S262144x256.Idx) : val_main_v1 (F := Ideal) x0 i = score (x0 i) := by
  have h0 : val_main_call0_v0 (F := Ideal) i = Ideal.ofBits .f32 0x00000000#32 := val_main_call0_v0_apply i
  have h2 : val_main_call0_v2 (F := Ideal) i = Ideal.ofBits .f32 0x00000000#32 := val_main_call0_v2_apply i
  have h5 : val_main_call0_v5 (F := Ideal) i = Ideal.ofBits .f32 0x00000000#32 := val_main_call0_v5_apply i
  show Ideal.sqrt (Scalar.select (Ideal.cmp .une (x0 i - val_main_call0_v2 (F := Ideal) i) (x0 i - val_main_call0_v2 (F := Ideal) i))
      (x0 i + val_main_call0_v5 (F := Ideal) i)
      (max (x0 i) (val_main_call0_v0 (F := Ideal) i)
        + Ideal.log1p (Ideal.exp (-(max (x0 i - val_main_call0_v2 (F := Ideal) i) (-(x0 i - val_main_call0_v2 (F := Ideal) i))))))) = score (x0 i)
  rw [h0, h2, h5]
  unfold score
  have hneg : ∀ y : EReal, Ideal.ofBits .f32 0x00000000#32 - y = -y := fun y => by rw [Ideal.ofBits_zero_f32, zero_sub]
  show _ = Ideal.sqrt (Scalar.select (Ideal.cmp .one _ _) _ (max _ _ + Ideal.log1p (Ideal.exp
    (Ideal.ofBits .f32 0x00000000#32 - max (x0 i - Ideal.ofBits .f32 0x00000000#32) (-(x0 i - Ideal.ofBits .f32 0x00000000#32))))))
  rw [hneg]
  rfl

/-- The positions the pick reads: the routed ids themselves (no wrap). -/
theorem pos_apply (hx2 : ∀ i, (x2 i).toNat < 256) (i : S262144x8.Idx) :
    val_main_call1_v4 (F := Ideal) x1 x2 i = val_main_v8 (F := Ideal) x1 x2 i := by
  rw [val_main_call1_v4_apply, val_main_call1_v1_apply, val_main_call1_v3_apply]
  exact wrap_id _ _ _ ((val_main_call1_v0_apply i).trans rfl) (rid_lt x1 x2 hx2 i)

theorem pos3_apply (hx2 : ∀ i, (x2 i).toNat < 256) (i : S262144x8x1.Idx) :
    val_main_call1_v5 (F := Ideal) x1 x2 i = val_main_v8 (F := Ideal) x1 x2 (idx_main_call1_v5 i) :=
  (val_main_call1_v5_apply x1 x2 i).trans (pos_apply x1 x2 hx2 _)

/-- The range test passes everywhere. -/
theorem mask_apply (hx2 : ∀ i, (x2 i).toNat < 256) (i : S262144x8.Idx) :
    val_main_call1_v12 (F := Ideal) x1 x2 i = 1#1 := by
  unfold val_main_call1_v12
  rw [Host.reduce_eq_foldl]
  have hinit : val_main_call1_c_3 (F := Ideal) (Shape.Idx.first h_S_) = 1#1 := rfl
  rw [hinit]
  refine foldl_andi_one _ (fun n => ?_) _
  rw [val_main_call1_v11_apply, val_main_call1_v7_apply, val_main_call1_v10_apply, pos3_apply x1 x2 hx2]
  exact in_range _ _ _ ((val_main_call1_v6_apply n).trans rfl)
    ((val_main_call1_v9_apply n).trans ((val_main_call1_v8_apply _).trans rfl)) (rid_lt x1 x2 hx2 _)

/-- The pick at (r, k): the score at the expert the routed id names — the kernel's one-hot lane sum. -/
theorem picked_apply (hx2 : ∀ i, (x2 i).toNat < 256) (r : Fin 262144) (k : Fin 8) :
    val_main_v9 (F := Ideal) x0 x1 x2 (ix2 r k)
      = pick (fun j => x0 (ix2 r j)) (val_main_v8 (F := Ideal) x1 x2 (ix2 r k)) := by
  have he := rid_lt x1 x2 hx2 (ix2 r k)
  rw [val_main_v9_apply, mask_apply x1 x2 hx2, select_one]
  unfold val_main_call1_v13
  refine (gather_along_apply (R := 262144) (N := 256) (C := 8) (by decide) gather_S262144x256_S262144x8x1_S262144x8_n_1_0_0_1_2_11_wf
    (val_main_v1 (F := Ideal) x0) (val_main_call1_v5 (F := Ideal) x1 x2) r k).trans ?_
  rw [ref_score, pick_eq _ _ he]
  have hp : val_main_call1_v5 (F := Ideal) x1 x2 (ix3 r k (0 : Fin 1)) = val_main_v8 (F := Ideal) x1 x2 (ix2 r k) := by
    rw [pos3_apply x1 x2 hx2]
    refine congrArg _ (funext fun a => Fin.ext ?_)
    have hr := r.isLt; have hk := k.isLt
    match a with
    | ⟨0, _⟩ => show ((r.val * 8 + k.val) * 1 + 0) / 8 = r.val; omega
    | ⟨1, _⟩ => show ((r.val * 8 + k.val) * 1 + 0) % 8 = k.val; omega
  refine congrArg (fun c => score (x0 (ix2 r c))) (Fin.ext ?_)
  show min (val_main_call1_v5 (F := Ideal) x1 x2 (ix3 r k (0 : Fin 1))).toInt.toNat (256 - 1) = (val_main_v8 (F := Ideal) x1 x2 (ix2 r k)).toNat
  rw [hp, toInt_of_lt _ he]
  omega

/-- The row sum of the picks: the token's total. -/
theorem total_apply (hx2 : ∀ i, (x2 i).toNat < 256) (r : Fin 262144) :
    val_main_v10 (F := Ideal) x0 x1 x2 (ix1 r)
      = total (fun j => x0 (ix2 r j)) (fun k => val_main_v8 (F := Ideal) x1 x2 (ix2 r k)) := by
  rw [val_main_v10_apply]
  have hz : val_main_cst (F := Ideal) (Shape.Idx.first h_S_) = 0 := Ideal.ofBits_zero_f32
  rw [hz, zero_add]
  unfold total
  refine Finset.sum_congr rfl fun k _ => ?_
  have hi : idx_main_v10 (ix1 r) k = ix2 r k := funext fun a => by
    match a with
    | ⟨0, _⟩ => rfl
    | ⟨1, _⟩ => rfl
  rw [hi, picked_apply x0 x1 x2 hx2]

/-- The quotients: the token's shares. -/
theorem share_apply (hx2 : ∀ i, (x2 i).toNat < 256) (r : Fin 262144) (k : Fin 8) :
    val_main_v13 (F := Ideal) x0 x1 x2 (ix2 r k)
      = share (fun j => x0 (ix2 r j)) (fun k => val_main_v8 (F := Ideal) x1 x2 (ix2 r k)) k := by
  rw [val_main_v13_apply, val_main_v12_apply, val_main_v11_apply, picked_apply x0 x1 x2 hx2]
  have hi : idx_main_v11 (idx_main_v12 (ix2 r k)) = ix1 r := funext fun a => by
    match a with
    | ⟨0, _⟩ => rfl
  rw [hi, total_apply x0 x1 x2 hx2]
  rfl

/-- 1.5, and division by it. -/
theorem three_halves : Ideal.ofBits .f32 0x3FC00000#32 = ((3 / 2 : ℝ) : EReal) := by
  simp [Ideal.ofBits, Ideal.ieee, -EReal.coe_mul]; norm_num

theorem div_three_halves (x : EReal) : Ideal.div x ((3 / 2 : ℝ) : EReal) = x * ((2 / 3 : ℝ) : EReal) := by
  rw [Ideal.div_coe (by norm_num : (3 / 2 : ℝ) ≠ 0)]
  congr 2; norm_num

/-- The ninth column: the row sum of the shares, divided by 1.5. -/
theorem ninth_apply (hx2 : ∀ i, (x2 i).toNat < 256) (r : Fin 262144) (u : Fin 1) :
    val_main_v18 (F := Ideal) x0 x1 x2 (ix2 r u)
      = (∑ k : Fin 8, share (fun j => x0 (ix2 r j)) (fun k => val_main_v8 (F := Ideal) x1 x2 (ix2 r k)) k) * ((2 / 3 : ℝ) : EReal) := by
  rw [val_main_v18_apply, val_main_v16_apply, val_main_v15_apply, val_main_v17_apply]
  have hz : val_main_cst_2 (F := Ideal) (Shape.Idx.first h_S_) = 0 := Ideal.ofBits_zero_f32
  have h15 : val_main_cst_3 (F := Ideal) (idx_main_v17 (ix2 r u)) = ((3 / 2 : ℝ) : EReal) := three_halves
  rw [hz, zero_add, h15]
  show Ideal.div _ _ = _
  rw [div_three_halves]
  refine congrArg (fun s : EReal => s * ((2 / 3 : ℝ) : EReal)) (Finset.sum_congr rfl fun k _ => ?_)
  have hi : idx_main_v15 (idx_main_v16 (ix2 r u)) k = ix2 r k := funext fun a => by
    match a with
    | ⟨0, _⟩ => rfl
    | ⟨1, _⟩ => rfl
  rw [hi, share_apply x0 x1 x2 hx2]

/-- THE REFERENCE'S RESULT: entry (r, q) is token r's routing weight q, of its logits and its routed ids. -/
theorem result_apply (hx2 : ∀ i, (x2 i).toNat < 256) (r : Fin 262144) (q : Fin 9) :
    val_main_v19 (F := Ideal) x0 x1 x2 (ix2 r q)
      = rowOut (fun j => x0 (ix2 r j)) (fun k => val_main_v8 (F := Ideal) x1 x2 (ix2 r k)) q := by
  unfold val_main_v19 rowOut
  by_cases h : q.val < 8
  · rw [dif_pos h]
    exact (concatenate_pair_apply_left (s₁ := S262144x8) (s₂ := S262144x1) 1 _ _ _ (ix2 r q) rfl (ix2 r ⟨q.val, h⟩) (fun b => by
      match b with
      | ⟨0, _⟩ => rfl
      | ⟨1, _⟩ => rfl)).trans (share_apply x0 x1 x2 hx2 r ⟨q.val, h⟩)
  · rw [dif_neg h]
    exact (concatenate_pair_apply_right (s₁ := S262144x8) (s₂ := S262144x1) 1 _ _ _ (ix2 r q) rfl rfl (ix2 r (0 : Fin 1)) (fun b hb => by
      match b with
      | ⟨0, _⟩ => rfl
      | ⟨1, _⟩ => exact absurd rfl hb) (by show 0 + 8 = q.val; have := q.isLt; omega)).trans (ninth_apply x0 x1 x2 hx2 r 0)

end Cert.ReferenceIdeal.RowValue

end
-- ==== Proof.lean ====
/-
  Token routing by a hash table: for each of 262144 tokens, the 8 experts its token id names in a table, weighted by
  sqrt(softplus(router logit)) at those experts, the 8 weights divided by their sum, and a ninth weight for the
  shared expert, (the sum of the 8 normalised weights) · 2/3; beside them the 8 expert ids with the shared
  expert's id 256 appended.

  The kernel picks a token's 8 scores by a one-hot lane sum inside the region (Σ_j score_j · [j = id]); the
  reference picks them by `take_along_axis`. The two agree exactly when every id in the table is an index into the
  256-wide expert axis, 0 ≤ id < 256: that is the precondition's second part, and it is used — below 0 the
  reference wraps the position and beyond 255 it answers a fill value, where the one-hot sum is 0. Under it:

  * the kernel's output block at (p, q) is token p's routing weight q of the block's rows (`KernelRow`), the 64
    blocks tile the output, and the host lines around the region gather the ids and append 256 (`KernelArray`);
  * the reference's result at (r, q) is the same routing weight of row r (`RefRow`): its position is not wrapped,
    its range test passes, its clamp is the identity, its pick is the score at the id, which is the one-hot sum;
    the division by the row sum is the same division; and x / 1.5 = x · 2/3 on every extended real;
  * the logits' finiteness is not needed: 0 · x = 0 and 1 · x = x hold for every extended real.

  The constant the kernel multiplies by, the f32 nearest 2/3, is named 2/3 (the one ledger entry).
-/
import proofs.«426437_j2791728742936_1_alg».proof.Defs
import proofs.«426437_j2791728742936_1_alg».proof.Proof.Gen.Kernel
import proofs.«426437_j2791728742936_1_alg».proof.Proof.Gen.Kernel.Skeleton
import proofs.«426437_j2791728742936_1_alg».proof.Proof.Gen.Kernel.Launch
import proofs.«426437_j2791728742936_1_alg».proof.Proof.Gen.Kernel.Points
import proofs.«426437_j2791728742936_1_alg».proof.Proof.Gen.Kernel.Frame
import proofs.«426437_j2791728742936_1_alg».proof.Proof.Gen.KernelIdeal
import proofs.«426437_j2791728742936_1_alg».proof.Proof.Gen.KernelIdeal.Skeleton
import proofs.«426437_j2791728742936_1_alg».proof.Proof.Gen.KernelIdeal.Launch
import proofs.«426437_j2791728742936_1_alg».proof.Proof.Gen.KernelIdeal.Points
import proofs.«426437_j2791728742936_1_alg».proof.Proof.Gen.KernelIdeal.Frame
import proofs.«426437_j2791728742936_1_alg».proof.Proof.Gen.ReferenceIdeal
import proofs.«426437_j2791728742936_1_alg».proof.Proof.Gen.Pre_finite_inputs
import proofs.«426437_j2791728742936_1_alg».proof.Proof.PreDecode
import proofs.«426437_j2791728742936_1_alg».proof.Proof.KernelArray
import proofs.«426437_j2791728742936_1_alg».proof.Proof.RefRow
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ledger's one entry: the table gives "c_2_3" the value 2/3. -/
theorem preserves : Cert.preserves_Kernel_KernelIdeal :=
  IdealRules.named_const.statement Cert.KernelIdeal.κ "c_2_3" .f32 0x3F2AAAAB#32 ((2 / 3 : ℝ) : EReal) rfl

/-- The routed ids are the same gather in both programs. -/
theorem routed_eq (a1 : IVec Cert.KernelIdeal.S262144 32) (a2 : IVec Cert.KernelIdeal.S129280x8 32) :
    Cert.KernelIdeal.ArrayValue.routed a1 a2 = Cert.ReferenceIdeal.RefRead.val_main_v8 (F := Ideal) a1 a2 := rfl

/-- Both programs end at the routing weights of the logits and the routed ids, and at the ids with 256 appended. -/
theorem algebraic : Cert.algebraic_KernelIdeal_ReferenceIdeal := by
  intro m ρ m' ρ' hpre hagree
  refine ⟨_, _, Cert.KernelIdeal.ArrayValue.run m ρ, ?_⟩
  refine (θ_run Cert.ReferenceIdeal.defs _ _).mono (fun _ h c => ⟨?_, ?_, (h c).2.2⟩)
    (Cert.ReferenceIdeal.RefRun.run (F := Ideal) m' ρ')
  · have hx2 := Cert.Pre_finite_inputs.Decode.ids_lt (F := Ideal) _ _ _ (hpre c)
    rw [(h c).1, Cert.ReferenceIdeal.RefRead.val_main_v19_eq, (hagree c).1, (hagree c).2.1, (hagree c).2.2]
    funext i
    obtain ⟨r, q, rfl⟩ : ∃ (r : Fin 262144) (q : Fin 9), i = ix2 r q := ⟨i 0, i 1, eq_ix2 i⟩
    rw [Cert.ReferenceIdeal.RowValue.result_apply _ _ _ hx2 r q, routed_eq]
    rfl
  · rw [(h c).2.1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
